-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S1x4096 : Shape := ⟨2, ![1, 4096]⟩
abbrev S33x4096 : Shape := ⟨2, ![33, 4096]⟩
abbrev S65x4096 : Shape := ⟨2, ![65, 4096]⟩
abbrev S1x32 : Shape := ⟨2, ![1, 32]⟩
abbrev S1x128 : Shape := ⟨2, ![1, 128]⟩
abbrev S16384x128 : Shape := ⟨2, ![16384, 128]⟩
abbrev S512x32 : Shape := ⟨2, ![512, 32]⟩
abbrev S512x128 : Shape := ⟨2, ![512, 128]⟩
abbrev S1024x1 : Shape := ⟨2, ![1024, 1]⟩
abbrev S1024x32 : Shape := ⟨2, ![1024, 32]⟩
abbrev S1024x33 : Shape := ⟨2, ![1024, 33]⟩
abbrev S1024x4096 : Shape := ⟨2, ![1024, 4096]⟩
abbrev S512x1 : Shape := ⟨2, ![512, 1]⟩
abbrev S512x65 : Shape := ⟨2, ![512, 65]⟩
abbrev S512x4096 : Shape := ⟨2, ![512, 4096]⟩

abbrev nBuf : Space → Nat
  | .hbm => 23
  | .vmem => 12
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x32, .bf16⟩
  | .hbm, ⟨11, _⟩ => ⟨S16384x32, .bf16⟩
  | .hbm, ⟨12, _⟩ => ⟨S1x4096, .f32⟩
  | .hbm, ⟨13, _⟩ => ⟨S33x4096, .f32⟩
  | .hbm, ⟨14, _⟩ => ⟨S33x4096, .bf16⟩
  | .hbm, ⟨15, _⟩ => ⟨S1x4096, .f32⟩
  | .hbm, ⟨16, _⟩ => ⟨S65x4096, .f32⟩
  | .hbm, ⟨17, _⟩ => ⟨S65x4096, .bf16⟩
  | .hbm, ⟨18, _⟩ => ⟨S4096x32, .bf16⟩
  | .hbm, ⟨19, _⟩ => ⟨S4096x128, .bf16⟩
  | .hbm, ⟨20, _⟩ => ⟨S1x32, .f32⟩
  | .hbm, ⟨21, _⟩ => ⟨S1x128, .f32⟩
  | .hbm, ⟨22, _⟩ => ⟨S16384x128, .f32⟩
  | .local _ .vmem, ⟨0, _⟩ => ⟨S512x32, .bf16⟩
  | .local _ .vmem, ⟨1, _⟩ => ⟨S512x32, .bf16⟩
  | .local _ .vmem, ⟨2, _⟩ => ⟨S512x32, .bf16⟩
  | .local _ .vmem, ⟨3, _⟩ => ⟨S512x32, .bf16⟩
  | .local _ .vmem, ⟨4, _⟩ => ⟨S33x4096, .bf16⟩
  | .local _ .vmem, ⟨5, _⟩ => ⟨S4096x32, .bf16⟩
  | .local _ .vmem, ⟨6, _⟩ => ⟨S1x32, .f32⟩
  | .local _ .vmem, ⟨7, _⟩ => ⟨S65x4096, .bf16⟩
  | .local _ .vmem, ⟨8, _⟩ => ⟨S4096x128, .bf16⟩
  | .local _ .vmem, ⟨9, _⟩ => ⟨S1x128, .f32⟩
  | .local _ .vmem, ⟨10, _⟩ => ⟨S512x128, .f32⟩
  | .local _ .vmem, ⟨11, _⟩ => ⟨S512x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S33x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S65x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  bcast_S4096_S1x4096_1 : S4096.BroadcastsInDim S1x4096 (![1] : Fin 1 → Fin S1x4096.rank)
  concatenates_S32x4096_S1x4096_S33x4096_d0 : Shape.Concatenates [S32x4096, S1x4096] S33x4096 0
  concatenates_S64x4096_S1x4096_S65x4096_d0 : Shape.Concatenates [S64x4096, S1x4096] S65x4096 0
  shapeCasts_S32_S1x32 : S32.ShapeCasts S1x32
  shapeCasts_S128_S1x128 : S128.ShapeCasts S1x128
  inb_S512x32_S512x32_0_0 : ∀ a, (![0, 0] : Fin 2 → Nat) a + S512x32.size a ≤ S512x32.size a
  h_S512x32 : 0 < S512x32.numel
  shapeCasts_S512x32_S512x32 : S512x32.ShapeCasts S512x32
  concatenates_S512x32_S512x32_S1024x32_d0 : Shape.Concatenates [S512x32, S512x32] S1024x32 0
  concatenates_S1024x32_S1024x1_S1024x33_d1 : Shape.Concatenates [S1024x32, S1024x1] S1024x33 1
  inb_S33x4096_S33x4096_0_0 : ∀ a, (![0, 0] : Fin 2 → Nat) a + S33x4096.size a ≤ S33x4096.size a
  h_S33x4096 : 0 < S33x4096.numel
  shapeCasts_S33x4096_S33x4096 : S33x4096.ShapeCasts S33x4096
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  slices_S1024x32_o0_0_S512x32 : S1024x32.Slices ![0, 0] S512x32
  slices_S1024x32_o512_0_S512x32 : S1024x32.Slices ![512, 0] S512x32
  concatenates_S512x32_S512x32_S512x1_S512x65_d1 : Shape.Concatenates [S512x32, S512x32, S512x1] S512x65 1
  inb_S65x4096_S65x4096_0_0 : ∀ a, (![0, 0] : Fin 2 → Nat) a + S65x4096.size a ≤ S65x4096.size a
  h_S65x4096 : 0 < S65x4096.numel
  shapeCasts_S65x4096_S65x4096 : S65x4096.ShapeCasts S65x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S1024x33_S33x4096_S1024x4096_1_0_0_1_n_n_wf : DotDims.WF S1024x33 S33x4096 S1024x4096 [1] [0] [0] [1] [] []
  dot_S1024x4096_S4096x32_S1024x32_1_0_0_1_n_n_wf : DotDims.WF S1024x4096 S4096x32 S1024x32 [1] [0] [0] [1] [] []
  dot_S512x65_S65x4096_S512x4096_1_0_0_1_n_n_wf : DotDims.WF S512x65 S65x4096 S512x4096 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S16384x32.size a
  hwx0_0 : ∀ i : grid0.Coords, EltTy.bits .bf16 = 32 ∨ (Rect.block (s := S16384x32) S512x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S16384x32.size a
  hwx0_1 : ∀ i : grid0.Coords, EltTy.bits .bf16 = 32 ∨ (Rect.block (s := S16384x32) S512x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S33x4096.size a ≤ S33x4096.size a
  hwx0_2 : ∀ i : grid0.Coords, EltTy.bits .bf16 = 32 ∨ (Rect.block (s := S33x4096) S33x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x32.size a ≤ S4096x32.size a
  hwx0_3 : ∀ i : grid0.Coords, EltTy.bits .bf16 = 32 ∨ (Rect.block (s := S4096x32) S4096x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S65x4096.size a ≤ S65x4096.size a
  hwx0_5 : ∀ i : grid0.Coords, EltTy.bits .bf16 = 32 ∨ (Rect.block (s := S65x4096) S65x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S4096x128.size a
  hwx0_6 : ∀ i : grid0.Coords, EltTy.bits .bf16 = 32 ∨ (Rect.block (s := S4096x128) S4096x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S16384x128.size a
  hwx0_8 : ∀ i : grid0.Coords, EltTy.bits .f32 = 32 ∨ (Rect.block (s := S16384x128) S512x128.size (cc0_transform_8 i) (hinb0_8 i)).WholeWords (EltTy.packing .f32)

variable [Facts₀]

def dot_S1024x33_S33x4096_S1024x4096_1_0_0_1_n_n : DotDims S1024x33 S33x4096 S1024x4096 where
  lhsContracting := [1]
  rhsContracting := [0]
  lhsNonContracting := [0]
  rhsNonContracting := [1]
  lhsBatch := []
  rhsBatch := []
  wf := dot_S1024x33_S33x4096_S1024x4096_1_0_0_1_n_n_wf
def dot_S1024x4096_S4096x32_S1024x32_1_0_0_1_n_n : DotDims S1024x4096 S4096x32 S1024x32 where
  lhsContracting := [1]
  rhsContracting := [0]
  lhsNonContracting := [0]
  rhsNonContracting := [1]
  lhsBatch := []
  rhsBatch := []
  wf := dot_S1024x4096_S4096x32_S1024x32_1_0_0_1_n_n_wf
def dot_S512x65_S65x4096_S512x4096_1_0_0_1_n_n : DotDims S512x65 S65x4096 S512x4096 where
  lhsContracting := [1]
  rhsContracting := [0]
  lhsNonContracting := [0]
  rhsNonContracting := [1]
  lhsBatch := []
  rhsBatch := []
  wf := dot_S512x65_S65x4096_S512x4096_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_v0) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S33x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4096x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S65x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S4096x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S512x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.Network.lean ====
/-
  The Siamese network over the extended reals, ONE BATCH ROW at a time.

  A row `x : Fin 32 → EReal` of a state matrix is embedded by two affine layers with a positive part after each,
      hidden x k = max (∑ l, x l · W1[l,k] + b1[k]) 0            (4096 hidden units)
      embed  x j = max (∑ k, hidden x k · W2[k,j] + b2[j]) 0     (32 outputs)
  and the embeddings `u`, `v` of a state row and of the next-state row, laid side by side (`pair u v`, 64 entries),
  go through the action head
      hidden2 y k = max (∑ l, y l · W3[l,k] + b3[k]) 0           (4096 hidden units)
      action  y q = ∑ k, hidden2 y k · W4[k,q] + b4[q]           (128 outputs).
  Row `r` of the result depends on row `r` of the two state matrices and on the weights only: `out`, and `G`, the
  whole result matrix index by index. Nothing here needs the entries to be finite: the only laws used anywhere
  about these sums are those of a commutative monoid and `1 · a = a`.
-/
import Idealize.ShloMosaic.Lib.ValueIdx

noncomputable section

open scoped BigOperators

namespace Cert.Network

open Idealize.ShloMosaic Idealize.ShloMosaic.ValueIdx

/-- An `a × b` matrix of extended reals, indexed as the programs index their arrays. -/
abbrev Mat (a b : ℕ) : Type := (⟨2, ![a, b]⟩ : Shape).Idx → EReal
/-- A vector of `a` extended reals. -/
abbrev Vct (a : ℕ) : Type := (⟨1, ![a]⟩ : Shape).Idx → EReal

/-- Hidden unit `k` of the embedding's first layer on the row `x`. -/
def hidden (W1 : Mat 32 4096) (b1 : Vct 4096) (x : Fin 32 → EReal) (k : Fin 4096) : EReal :=
  max ((∑ l : Fin 32, x l * W1 (ix2 l k)) + b1 (ix1 k)) 0

/-- Entry `j` of the embedding of the row `x`. -/
def embed (W1 : Mat 32 4096) (b1 : Vct 4096) (W2 : Mat 4096 32) (b2 : Vct 32) (x : Fin 32 → EReal) (j : Fin 32) : EReal :=
  max ((∑ k : Fin 4096, hidden W1 b1 x k * W2 (ix2 k j)) + b2 (ix1 j)) 0

/-- Two embeddings side by side: entries 0–31 are `u`, entries 32–63 are `v`. -/
def pair (u v : Fin 32 → EReal) (l : Fin 64) : EReal :=
  if h : l.val < 32 then u ⟨l.val, h⟩ else v ⟨l.val - 32, by have := l.isLt; omega⟩

/-- Hidden unit `k` of the action head on the 64 joined entries `y`. -/
def hidden2 (W3 : Mat 64 4096) (b3 : Vct 4096) (y : Fin 64 → EReal) (k : Fin 4096) : EReal :=
  max ((∑ l : Fin 64, y l * W3 (ix2 l k)) + b3 (ix1 k)) 0

/-- Output `q` of the action head on the 64 joined entries `y`. -/
def action (W3 : Mat 64 4096) (b3 : Vct 4096) (W4 : Mat 4096 128) (b4 : Vct 128) (y : Fin 64 → EReal) (q : Fin 128) : EReal :=
  (∑ k : Fin 4096, hidden2 W3 b3 y k * W4 (ix2 k q)) + b4 (ix1 q)

/-- Entry `(r, q)` of the result: the action head on the embeddings of row `r` of the two state matrices. -/
def out (s n : Mat 16384 32) (W1 : Mat 32 4096) (b1 : Vct 4096) (W2 : Mat 4096 32) (b2 : Vct 32)
    (W3 : Mat 64 4096) (b3 : Vct 4096) (W4 : Mat 4096 128) (b4 : Vct 128) (r : Fin 16384) (q : Fin 128) : EReal :=
  action W3 b3 W4 b4 (pair (embed W1 b1 W2 b2 fun l => s (ix2 r l)) (embed W1 b1 W2 b2 fun l => n (ix2 r l))) q

/-- The whole result matrix. -/
def G (s n : Mat 16384 32) (W1 : Mat 32 4096) (b1 : Vct 4096) (W2 : Mat 4096 32) (b2 : Vct 32)
    (W3 : Mat 64 4096) (b3 : Vct 4096) (W4 : Mat 4096 128) (b4 : Vct 128) : Mat 16384 128 :=
  fun i => out s n W1 b1 W2 b2 W3 b3 W4 b4 (i 0) (i 1)

theorem G_apply (s n : Mat 16384 32) (W1 : Mat 32 4096) (b1 : Vct 4096) (W2 : Mat 4096 32) (b2 : Vct 32)
    (W3 : Mat 64 4096) (b3 : Vct 4096) (W4 : Mat 4096 128) (b4 : Vct 128) (r : Fin 16384) (q : Fin 128) :
    G s n W1 b1 W2 b2 W3 b3 W4 b4 (ix2 r q) = out s n W1 b1 W2 b2 W3 b3 W4 b4 r q := rfl

end Cert.Network

end
-- ==== Proof.ReferenceRows.lean ====
/-
  The reference computes the network row by row: its result matrix is `Network.G` of its ten arguments.
-/
import proofs.«139217_g11802570129985_cont_main3_81_3_alg».proof.Proof.Gen.ReferenceIdeal.Read
import proofs.«139217_g11802570129985_cont_main3_81_3_alg».proof.Proof.Network

noncomputable section

open scoped BigOperators

namespace Cert.ReferenceRows

open Cert.ReferenceIdeal Cert.ReferenceIdeal.Read Idealize.ShloMosaic Idealize.ShloMosaic.ValueIdx

/-- The zero each positive part compares with is the zero of the extended reals. -/
theorem zero_bits : FloatOps.ofBits (F := Ideal) .f32 0x00000000#32 = (0 : EReal) := by
  rw [Ideal.ofBits_def, Ideal.ofBits_zero_f32]

/-- First layer of the embedding, on row `r` of the matrix `x0`: hidden unit `k`. -/
theorem v4_eq (x0 : (⟨S16384x32, .f32⟩ : BufTy).Contents (Elt Ideal)) (x2 : (⟨S32x4096, .f32⟩ : BufTy).Contents (Elt Ideal)) (x3 : (⟨S4096, .f32⟩ : BufTy).Contents (Elt Ideal)) (r : Fin 16384) (k : Fin 4096) :
    val_main_v4 (F := Ideal) x0 x2 x3 (ix2 r k) = Cert.Network.hidden x2 x3 (fun l => x0 (ix2 r l)) k := by
  rw [val_main_v4_apply, val_main_v3_apply, val_main_v0_apply, val_main_v2_apply, val_main_v1_apply,
    val_main_call0_v0_apply, val_main_call0_cst_apply, Ideal.maximumf_def, Ideal.addf_def, zero_bits]
  unfold Cert.Network.hidden
  have e1 : ∀ l : Fin 32, lidx_main_v0 (ix2 r k) l = ix2 r l :=
    fun l => funext fun a => match a with | ⟨0, _⟩ => rfl | ⟨1, _⟩ => rfl
  have e2 : ∀ l : Fin 32, ridx_main_v0 (ix2 r k) l = ix2 l k :=
    fun l => funext fun a => match a with | ⟨0, _⟩ => rfl | ⟨1, _⟩ => rfl
  have e3 : idx_main_v1 (idx_main_v2 (ix2 r k)) = ix1 k :=
    funext fun a => match a with | ⟨0, _⟩ => rfl
  simp only [e1, e2, e3]

/-- The embedding of row `r` of the matrix `x0`: entry `j`. -/
theorem v9_eq (x0 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (r : Fin 16384) (j : Fin 32) :
    val_main_v9 (F := Ideal) x0 x2 x3 x4 x5 (ix2 r j) = Cert.Network.embed x2 x3 x4 x5 (fun l => x0 (ix2 r l)) j := by
  rw [val_main_v9_apply, val_main_v8_apply, val_main_v5_apply, val_main_v7_apply, val_main_v6_apply,
    val_main_call1_v0_apply, val_main_call1_cst_apply, Ideal.maximumf_def, Ideal.addf_def, zero_bits]
  unfold Cert.Network.embed
  have e1 : ∀ k : Fin 4096, lidx_main_v5 (ix2 r j) k = ix2 r k :=
    fun k => funext fun a => match a with | ⟨0, _⟩ => rfl | ⟨1, _⟩ => rfl
  have e2 : ∀ k : Fin 4096, ridx_main_v5 (ix2 r j) k = ix2 k j :=
    fun k => funext fun a => match a with | ⟨0, _⟩ => rfl | ⟨1, _⟩ => rfl
  have e3 : idx_main_v6 (idx_main_v7 (ix2 r j)) = ix1 j :=
    funext fun a => match a with | ⟨0, _⟩ => rfl
  simp only [e1, e2, e3, v4_eq]

/-- The second state matrix goes through the very same two layers: its stages are those of the first, letter for
    letter, on the other argument. -/
theorem v19_eq_v9 (x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) :
    val_main_v19 (F := Ideal) x1 x2 x3 x4 x5 = val_main_v9 (F := Ideal) x1 x2 x3 x4 x5 := rfl

/-- The two embeddings of row `r` laid side by side: entry `l` of the 64. -/
theorem v20_eq (x0 : (⟨S16384x32, .f32⟩ : BufTy).Contents (Elt Ideal)) (x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (r : Fin 16384) (l : Fin 64) :
    val_main_v20 (F := Ideal) x0 x1 x2 x3 x4 x5 (ix2 r l)
      = Cert.Network.pair (Cert.Network.embed x2 x3 x4 x5 fun l => x0 (ix2 r l))
          (Cert.Network.embed x2 x3 x4 x5 fun l => x1 (ix2 r l)) l := by
  unfold Cert.Network.pair val_main_v20
  by_cases h : l.val < 32
  · -- an entry below 32 is read from the first piece at the same coordinates
    rw [dif_pos h, ← v9_eq x0 x2 x3 x4 x5 r ⟨l.val, h⟩]
    exact concatenate_pair_apply_left (t := S16384x64) (s₁ := S16384x32) (s₂ := S16384x32) (1 : Fin 2) _ _ _ (ix2 r l) rfl (ix2 r (⟨l.val, h⟩ : Fin 32))
      (fun b => match b with | ⟨0, _⟩ => rfl | ⟨1, _⟩ => rfl)
  · -- an entry from 32 on is read from the second piece, 32 places to the left
    have hl : l.val - 32 < 32 := by have := l.isLt; omega
    rw [dif_neg h, ← v9_eq x1 x2 x3 x4 x5 r ⟨l.val - 32, hl⟩, ← v19_eq_v9 x1 x2 x3 x4 x5]
    exact concatenate_pair_apply_right (t := S16384x64) (s₁ := S16384x32) (s₂ := S16384x32) (1 : Fin 2) _ _ _ (ix2 r l) rfl rfl (ix2 r (⟨l.val - 32, hl⟩ : Fin 32))
      (fun b hb => match b, hb with
        | ⟨0, _⟩, _ => rfl
        | ⟨1, _⟩, hb => absurd rfl hb)
      (by show l.val - 32 + 32 = l.val; omega)

/-- First layer of the action head on the joined embeddings of row `r`: hidden unit `k`. -/
theorem v25_eq (x0 : (⟨S16384x32, .f32⟩ : BufTy).Contents (Elt Ideal)) (x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (x6 : (⟨S64x4096, .f32⟩ : BufTy).Contents (Elt Ideal)) (x7 : (⟨S4096, .f32⟩ : BufTy).Contents (Elt Ideal)) (r : Fin 16384) (k : Fin 4096) :
    val_main_v25 (F := Ideal) x0 x1 x2 x3 x4 x5 x6 x7 (ix2 r k)
      = Cert.Network.hidden2 x6 x7 (Cert.Network.pair (Cert.Network.embed x2 x3 x4 x5 fun l => x0 (ix2 r l))
          (Cert.Network.embed x2 x3 x4 x5 fun l => x1 (ix2 r l))) k := by
  rw [val_main_v25_apply, val_main_v24_apply, val_main_v21_apply, val_main_v23_apply, val_main_v22_apply,
    val_main_call4_v0_apply, val_main_call4_cst_apply, Ideal.maximumf_def, Ideal.addf_def, zero_bits]
  unfold Cert.Network.hidden2
  have e1 : ∀ l : Fin 64, lidx_main_v21 (ix2 r k) l = ix2 r l :=
    fun l => funext fun a => match a with | ⟨0, _⟩ => rfl | ⟨1, _⟩ => rfl
  have e2 : ∀ l : Fin 64, ridx_main_v21 (ix2 r k) l = ix2 l k :=
    fun l => funext fun a => match a with | ⟨0, _⟩ => rfl | ⟨1, _⟩ => rfl
  have e3 : idx_main_v22 (idx_main_v23 (ix2 r k)) = ix1 k :=
    funext fun a => match a with | ⟨0, _⟩ => rfl
  simp only [e1, e2, e3, v20_eq]

/-- The action head's output `q` on row `r`: the reference's result at `(r, q)`. -/
theorem v29_eq (x0 : (⟨S16384x32, .f32⟩ : BufTy).Contents (Elt Ideal)) (x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (x6 : (⟨S64x4096, .f32⟩ : BufTy).Contents (Elt Ideal)) (x7 : (⟨S4096, .f32⟩ : BufTy).Contents (Elt Ideal)) (x8 : (⟨S4096x128, .f32⟩ : BufTy).Contents (Elt Ideal)) (x9 : (⟨S128, .f32⟩ : BufTy).Contents (Elt Ideal)) (r : Fin 16384) (q : Fin 128) :
    val_main_v29 (F := Ideal) x0 x1 x2 x3 x4 x5 x6 x7 x8 x9 (ix2 r q)
      = Cert.Network.out x0 x1 x2 x3 x4 x5 x6 x7 x8 x9 r q := by
  rw [val_main_v29_apply, val_main_v26_apply, val_main_v28_apply, val_main_v27_apply, Ideal.addf_def]
  unfold Cert.Network.out Cert.Network.action
  have e1 : ∀ k : Fin 4096, lidx_main_v26 (ix2 r q) k = ix2 r k :=
    fun k => funext fun a => match a with | ⟨0, _⟩ => rfl | ⟨1, _⟩ => rfl
  have e2 : ∀ k : Fin 4096, ridx_main_v26 (ix2 r q) k = ix2 k q :=
    fun k => funext fun a => match a with | ⟨0, _⟩ => rfl | ⟨1, _⟩ => rfl
  have e3 : idx_main_v27 (idx_main_v28 (ix2 r q)) = ix1 q :=
    funext fun a => match a with | ⟨0, _⟩ => rfl
  simp only [e1, e2, e3, v25_eq]

/-- The reference's result, as the generated stages compose it, is the network's result matrix. -/
theorem ref_eq (x0 x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (x6 : (⟨S64x4096, .f32⟩ : BufTy).Contents (Elt Ideal)) (x7 : (⟨S4096, .f32⟩ : BufTy).Contents (Elt Ideal)) (x8 : (⟨S4096x128, .f32⟩ : BufTy).Contents (Elt Ideal)) (x9 : (⟨S128, .f32⟩ : BufTy).Contents (Elt Ideal)) :
    val_main_v29 (F := Ideal) x0 x1 x2 x3 x4 x5 x6 x7 x8 x9 = Cert.Network.G x0 x1 x2 x3 x4 x5 x6 x7 x8 x9 := by
  funext i
  obtain ⟨r, q, rfl⟩ : ∃ (r : Fin 16384) (q : Fin 128), i = ix2 r q := ⟨i 0, i 1, eq_ix2 i⟩
  rw [Cert.Network.G_apply]
  exact v29_eq x0 x1 x2 x3 x4 x5 x6 x7 x8 x9 r q

end Cert.ReferenceRows

end
-- ==== Proof.LibMatrixLayout.lean ====
/-
  Matrices laid out and multiplied, read at an index: general facts, at any extents.

  * A plain matrix product (rows × contraction by contraction × columns) accumulated into the zero matrix is, at the
    entry `(a, b)`, the sum over the contracted coordinate `c` of `A (a, c) · B (c, b)`, over the extended reals
    (`mm_apply`; `mm_lhs`, `mm_rhs`: where the product reads its operands).
  * Two matrices stacked one over the other read, at row `r`, the upper one at `r` or the lower one at `r` less the
    upper one's height (`stack_upper`, `stack_lower`).
  * A matrix with one more column appended reads the matrix left of it and the column at it (`append_col_left`,
    `append_col_last`); two matrices and a column side by side read each piece at the column less the widths before
    it (`join3_first`, `join3_second`, `join3_third`).
  * A sum over one more index whose last factors are `1` and `b` is the shorter sum plus `b` (`sum_aug`): how a bias
    rides through a matrix product as one more row of the weights against a column of ones.
-/
import Idealize.ShloMosaic.Lib.Pipeline.Value
import Idealize.ShloMosaic.Lib.ValueIdx
import Idealize.ShloMosaic.PureOps.Ideal.Laws

noncomputable section

open scoped BigOperators

namespace Cert.MatrixLayout

open Idealize.ShloMosaic Idealize.ShloMosaic.ValueIdx

/-! ## A plain matrix product into the zero matrix -/

/-- The dimension numbers of a plain product: rows by contraction times contraction by columns. -/
abbrev plainDims {M K N : Nat}
    (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- At the result index `(a, b)` and the contraction coordinate `c`, a plain product reads its left operand at `(a, c)`. -/
theorem mm_lhs {M K N : Nat}
    (w : DotDims.WF ⟨2, ![M, K]⟩ ⟨2, ![K, N]⟩ ⟨2, ![M, N]⟩ [1] [0] [0] [1] [] [])
    (a : Fin M) (b : Fin N) (c : Fin K) :
    (plainDims w).lhsIdx (ix2 a b) ((contrEquiv1 (plainDims w) K rfl rfl).symm c) = ix2 a c := by
  refine Shape.idx_ext₂ ?_ ?_
  · unfold DotDims.lhsIdx
    rw [dif_neg (show ¬(0 : Fin 2) ∈ ([] : List (Fin 2)) from List.not_mem_nil),
      dif_pos (show (0 : Fin 2) ∈ [(0 : Fin 2)] from List.mem_singleton.mpr rfl)]
    rfl
  · exact ((plainDims w).lhsIdx_val_of_single (cl := 1) rfl _ _).trans
      (contrEquiv1_symm_val (plainDims w) K rfl rfl c)

/-- At the result index `(a, b)` and the contraction coordinate `c`, a plain product reads its right operand at `(c, b)`. -/
theorem mm_rhs {M K N : Nat}
    (w : DotDims.WF ⟨2, ![M, K]⟩ ⟨2, ![K, N]⟩ ⟨2, ![M, N]⟩ [1] [0] [0] [1] [] [])
    (a : Fin M) (b : Fin N) (c : Fin K) :
    (plainDims w).rhsIdx (ix2 a b) ((contrEquiv1 (plainDims w) K rfl rfl).symm c) = ix2 c b := by
  refine Shape.idx_ext₂ ?_ ?_
  · exact ((plainDims w).rhsIdx_val_of_single (cr := 0) rfl _ _).trans
      (contrEquiv1_symm_val (plainDims w) K rfl rfl c)
  · unfold DotDims.rhsIdx
    rw [dif_neg (show ¬(1 : Fin 2) ∈ ([] : List (Fin 2)) from List.not_mem_nil),
      dif_pos (show (1 : Fin 2) ∈ [(1 : Fin 2)] from List.mem_singleton.mpr rfl)]
    rfl

/-- A plain product accumulated into the zero matrix, at `(a, b)`: the sum over the contracted coordinate of the products
    of the entries. -/
theorem mm_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply, ← Equiv.sum_comp (contrEquiv1 (plainDims w) K rfl rfl).symm]
  exact Finset.sum_congr rfl fun c _ => by rw [mm_lhs, mm_rhs]

/-! ## Stacking, appending a column, joining side by side: read at an index -/

section Layout
variable {α : Type}

/-- Two matrices stacked, read in the upper part. -/
theorem stack_upper {m₁ m₂ m n : Nat} (x₁ : (⟨2, ![m₁, n]⟩ : Shape).Idx → α) (x₂ : (⟨2, ![m₂, n]⟩ : Shape).Idx → α)
    (h : Shape.Concatenates [⟨2, ![m₁, n]⟩, ⟨2, ![m₂, n]⟩] ⟨2, ![m, n]⟩ 0)
    (r : Fin m) (p : Fin m₁) (l : Fin n) (hr : r.val = p.val) :
    concatenate ⟨2, ![m, n]⟩ 0 [⟨_, x₁⟩, ⟨_, x₂⟩] h (ix2 r l) = x₁ (ix2 p l) :=
  concatenate_pair_apply_left 0 x₁ x₂ h (ix2 r l) rfl (ix2 p l)
    (fun b => match b with | ⟨0, _⟩ => hr.symm | ⟨1, _⟩ => rfl)

/-- Two matrices stacked, read in the lower part. -/
theorem stack_lower {m₁ m₂ m n : Nat} (x₁ : (⟨2, ![m₁, n]⟩ : Shape).Idx → α) (x₂ : (⟨2, ![m₂, n]⟩ : Shape).Idx → α)
    (h : Shape.Concatenates [⟨2, ![m₁, n]⟩, ⟨2, ![m₂, n]⟩] ⟨2, ![m, n]⟩ 0)
    (r : Fin m) (p : Fin m₂) (l : Fin n) (hr : r.val = m₁ + p.val) :
    concatenate ⟨2, ![m, n]⟩ 0 [⟨_, x₁⟩, ⟨_, x₂⟩] h (ix2 r l) = x₂ (ix2 p l) :=
  concatenate_pair_apply_right 0 x₁ x₂ h (ix2 r l) rfl rfl (ix2 p l)
    (fun b => match b with | ⟨0, _⟩ => fun hb => absurd rfl hb | ⟨1, _⟩ => fun _ => rfl)
    ((Nat.add_comm _ _).trans hr.symm)

/-- A column appended to a matrix, read left of the new column. -/
theorem append_col_left {m n : Nat} (x : (⟨2, ![m, n]⟩ : Shape).Idx → α) (o : (⟨2, ![m, 1]⟩ : Shape).Idx → α)
    (h : Shape.Concatenates [⟨2, ![m, n]⟩, ⟨2, ![m, 1]⟩] ⟨2, ![m, n + 1]⟩ 1)
    (r : Fin m) (l : Fin n) :
    concatenate ⟨2, ![m, n + 1]⟩ 1 [⟨_, x⟩, ⟨_, o⟩] h (ix2 r l.castSucc) = x (ix2 r l) :=
  concatenate_pair_apply_left 1 x o h (ix2 r l.castSucc) rfl (ix2 r l)
    (fun b => match b with | ⟨0, _⟩ => rfl | ⟨1, _⟩ => rfl)

/-- A column appended to a matrix, read at the new column. -/
theorem append_col_last {m n : Nat} (x : (⟨2, ![m, n]⟩ : Shape).Idx → α) (o : (⟨2, ![m, 1]⟩ : Shape).Idx → α)
    (h : Shape.Concatenates [⟨2, ![m, n]⟩, ⟨2, ![m, 1]⟩] ⟨2, ![m, n + 1]⟩ 1)
    (r : Fin m) :
    concatenate ⟨2, ![m, n + 1]⟩ 1 [⟨_, x⟩, ⟨_, o⟩] h (ix2 r (Fin.last n)) = o (ix2 r (0 : Fin 1)) :=
  concatenate_pair_apply_right 1 x o h (ix2 r (Fin.last n)) rfl rfl (ix2 r (0 : Fin 1))
    (fun b => match b with | ⟨0, _⟩ => fun _ => rfl | ⟨1, _⟩ => fun hb => absurd rfl hb)
    (Nat.zero_add _)

/-- Two matrices and a column side by side, read in the first matrix. -/
theorem join3_first {m n₁ n₂ n : Nat} (u : (⟨2, ![m, n₁]⟩ : Shape).Idx → α) (v : (⟨2, ![m, n₂]⟩ : Shape).Idx → α)
    (o : (⟨2, ![m, 1]⟩ : Shape).Idx → α)
    (h : Shape.Concatenates [⟨2, ![m, n₁]⟩, ⟨2, ![m, n₂]⟩, ⟨2, ![m, 1]⟩] ⟨2, ![m, n]⟩ 1)
    (p : Fin m) (c : Fin n) (l : Fin n₁) (hc : c.val = l.val) :
    concatenate ⟨2, ![m, n]⟩ 1 [⟨_, u⟩, ⟨_, v⟩, ⟨_, o⟩] h (ix2 p c) = u (ix2 p l) :=
  concatenate_apply_piece 1 [⟨_, u⟩, ⟨_, v⟩, ⟨_, o⟩] h (ix2 p c) 0 (show 0 < 3 by omega) _ u rfl rfl 0 rfl (ix2 p l)
    (fun b => match b with | ⟨0, _⟩ => fun _ => rfl | ⟨1, _⟩ => fun hb => absurd rfl hb)
    ((Nat.zero_add _).trans hc.symm)

/-- Two matrices and a column side by side, read in the second matrix. -/
theorem join3_second {m n₁ n₂ n : Nat} (u : (⟨2, ![m, n₁]⟩ : Shape).Idx → α) (v : (⟨2, ![m, n₂]⟩ : Shape).Idx → α)
    (o : (⟨2, ![m, 1]⟩ : Shape).Idx → α)
    (h : Shape.Concatenates [⟨2, ![m, n₁]⟩, ⟨2, ![m, n₂]⟩, ⟨2, ![m, 1]⟩] ⟨2, ![m, n]⟩ 1)
    (p : Fin m) (c : Fin n) (l : Fin n₂) (hc : c.val = n₁ + l.val) :
    concatenate ⟨2, ![m, n]⟩ 1 [⟨_, u⟩, ⟨_, v⟩, ⟨_, o⟩] h (ix2 p c) = v (ix2 p l) :=
  concatenate_apply_piece 1 [⟨_, u⟩, ⟨_, v⟩, ⟨_, o⟩] h (ix2 p c) 1 (show 1 < 3 by omega) _ v rfl rfl n₁ rfl (ix2 p l)
    (fun b => match b with | ⟨0, _⟩ => fun _ => rfl | ⟨1, _⟩ => fun hb => absurd rfl hb)
    hc.symm

/-- Two matrices and a column side by side, read at the column. -/
theorem join3_third {m n₁ n₂ n : Nat} (u : (⟨2, ![m, n₁]⟩ : Shape).Idx → α) (v : (⟨2, ![m, n₂]⟩ : Shape).Idx → α)
    (o : (⟨2, ![m, 1]⟩ : Shape).Idx → α)
    (h : Shape.Concatenates [⟨2, ![m, n₁]⟩, ⟨2, ![m, n₂]⟩, ⟨2, ![m, 1]⟩] ⟨2, ![m, n]⟩ 1)
    (p : Fin m) (c : Fin n) (hc : c.val = n₁ + n₂) :
    concatenate ⟨2, ![m, n]⟩ 1 [⟨_, u⟩, ⟨_, v⟩, ⟨_, o⟩] h (ix2 p c) = o (ix2 p (0 : Fin 1)) :=
  concatenate_apply_piece 1 [⟨_, u⟩, ⟨_, v⟩, ⟨_, o⟩] h (ix2 p c) 2 (show 2 < 3 by omega) _ o rfl rfl (n₁ + n₂)
    (show n₁ + (n₂ + 0) = n₁ + n₂ from rfl) (ix2 p (0 : Fin 1))
    (fun b => match b with | ⟨0, _⟩ => fun _ => rfl | ⟨1, _⟩ => fun hb => absurd rfl hb)
    hc.symm

end Layout

/-! ## A bias carried as one more row against a column of ones -/

/-- A sum over one more index whose last factors are `1` and `b` is the shorter sum plus `b`. -/
theorem sum_aug {K : Nat} (f g : Fin (K + 1) → EReal) (x w : Fin K → EReal) (b : EReal)
    (hf : ∀ l, f l.castSucc = x l) (hf1 : f (Fin.last K) = 1)
    (hg : ∀ l, g l.castSucc = w l) (hg1 : g (Fin.last K) = b) :
    ∑ c, f c * g c = (∑ l, x l * w l) + b := by
  rw [Fin.sum_univ_castSucc, hf1, hg1, one_mul]
  exact congrArg (· + b) (Finset.sum_congr rfl fun l _ => by rw [hf, hg])

end Cert.MatrixLayout

end
-- ==== Proof.TileRows.lean ====
/-
  One grid point of the kernel computes the network on each of the 512 rows of its tile.
-/
import proofs.«139217_g11802570129985_cont_main3_81_3_alg».proof.Proof.Gen.KernelIdeal.Skeleton
import proofs.«139217_g11802570129985_cont_main3_81_3_alg».proof.Proof.Network
import proofs.«139217_g11802570129985_cont_main3_81_3_alg».proof.Proof.LibMatrixLayout
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.TileRows

open Cert.KernelIdeal Cert.KernelIdeal.Gen Cert.Network Cert.MatrixLayout Idealize.ShloMosaic Idealize.ShloMosaic.ValueIdx

/-! ## The layers -/

/-- An affine layer with a positive part, computed as ONE product: row `r` of `A` is `x` followed by `1`, column `k` of
    `B` is column `k` of `W` followed by the bias. The change of format after it is the identity on extended reals. -/
theorem relu_aug_apply {M K N : Nat} {φ₁ φ₂ : FTy}
    (w : DotDims.WF ⟨2, ![M, K + 1]⟩ ⟨2, ![K + 1, N]⟩ ⟨2, ![M, N]⟩ [1] [0] [0] [1] [] [])
    (hlt : FTy.bits .bf16 < FTy.bits .f32)
    (A : FVec Ideal ⟨2, ![M, K + 1]⟩ φ₁) (B : FVec Ideal ⟨2, ![K + 1, N]⟩ φ₂)
    (x : Fin K → EReal) (W : Mat K N) (b : Vct N) (r : Fin M) (k : Fin N)
    (hA : ∀ l : Fin K, A (ix2 r l.castSucc) = x l) (hA1 : A (ix2 r (Fin.last K)) = 1)
    (hB : ∀ l : Fin K, B (ix2 l.castSucc k) = W (ix2 l k)) (hB1 : B (ix2 (Fin.last K) k) = b (ix1 k)) :
    truncf .bf16 (maximumf (matmul (plainDims w) none A B (constant ⟨2, ![M, N]⟩ .f32 0x00000000#32))
        (broadcast ⟨2, ![M, N]⟩ (Scalar.ofBits (F := Ideal) .f32 0x00000000#32))) hlt (ix2 r k)
      = max ((∑ l : Fin K, x l * W (ix2 l k)) + b (ix1 k)) 0 := by
  show max (FloatOps.matmul (plainDims w) none A B (constant ⟨2, ![M, N]⟩ .f32 0x00000000#32) (ix2 r k))
    (Ideal.ofBits .f32 0x00000000#32) = _
  rw [mm_apply, Ideal.ofBits_zero_f32,
    sum_aug (fun c => A (ix2 r c)) (fun c => B (ix2 c k)) x (fun l => W (ix2 l k)) (b (ix1 k)) hA hA1 hB hB1]

/-- An affine layer with a positive part whose bias arrives as a one-row matrix added after the product; row `r` of `A`
    is `y`, column `j` of `B` is column `j` of `W`. -/
theorem relu_bias_apply {M K N : Nat} {φ₁ φ₂ : FTy}
    (w : DotDims.WF ⟨2, ![M, K]⟩ ⟨2, ![K, N]⟩ ⟨2, ![M, N]⟩ [1] [0] [0] [1] [] [])
    (hlt : FTy.bits .bf16 < FTy.bits .f32)
    (A : FVec Ideal ⟨2, ![M, K]⟩ φ₁) (B : FVec Ideal ⟨2, ![K, N]⟩ φ₂) (br : FVec Ideal ⟨2, ![1, N]⟩ .f32)
    (hbr : (⟨2, ![1, N]⟩ : Shape).Broadcasts ⟨2, ![M, N]⟩)
    (y : Fin K → EReal) (W : Mat K N) (b : Vct N) (r : Fin M) (j : Fin N)
    (hA : ∀ k : Fin K, A (ix2 r k) = y k) (hB : ∀ k : Fin K, B (ix2 k j) = W (ix2 k j))
    (hb : br (ix2 (0 : Fin 1) j) = b (ix1 j)) :
    truncf .bf16 (maximumf (addf (matmul (plainDims w) none A B (constant ⟨2, ![M, N]⟩ .f32 0x00000000#32))
          (broadcastTo ⟨2, ![M, N]⟩ br hbr))
        (broadcast ⟨2, ![M, N]⟩ (Scalar.ofBits (F := Ideal) .f32 0x00000000#32))) hlt (ix2 r j)
      = max ((∑ k : Fin K, y k * W (ix2 k j)) + b (ix1 j)) 0 := by
  show max (FloatOps.matmul (plainDims w) none A B (constant ⟨2, ![M, N]⟩ .f32 0x00000000#32) (ix2 r j)
      + broadcastTo ⟨2, ![M, N]⟩ br hbr (ix2 r j)) (Ideal.ofBits .f32 0x00000000#32) = _
  rw [mm_apply, Ideal.ofBits_zero_f32, broadcastTo_1b_ab_apply, hb]
  exact congrArg (fun t => max (t + b (ix1 j)) 0) (Finset.sum_congr rfl fun k _ => by rw [hA, hB])

/-- The two embedding layers on the stacked matrix: where row `r` of the two state tiles stacked is the row `x`, row `r` of
    the second layer's result is the embedding of `x`. -/
theorem embed_row (x₁ x₂ : FVec Ideal S512x32 .bf16) (W1f : FVec Ideal S33x4096 .bf16) (W2f : FVec Ideal S4096x32 .bf16)
    (b2r : FVec Ideal S1x32 .f32)
    (h5 : Shape.Concatenates [S512x32, S512x32] S1024x32 0) (h6 : Shape.Concatenates [S1024x32, S1024x1] S1024x33 1)
    (w1 : DotDims.WF S1024x33 S33x4096 S1024x4096 [1] [0] [0] [1] [] [])
    (w2 : DotDims.WF S1024x4096 S4096x32 S1024x32 [1] [0] [0] [1] [] [])
    (hbr : S1x32.Broadcasts S1024x32) (hlt : FTy.bits .bf16 < FTy.bits .f32)
    (W1 : Mat 32 4096) (b1 : Vct 4096) (W2 : Mat 4096 32) (b2 : Vct 32)
    (hW1 : ∀ (l : Fin 32) (k : Fin 4096), W1f (ix2 l.castSucc k) = W1 (ix2 l k))
    (hb1 : ∀ k : Fin 4096, W1f (ix2 (Fin.last 32) k) = b1 (ix1 k))
    (hW2 : ∀ (k : Fin 4096) (j : Fin 32), W2f (ix2 k j) = W2 (ix2 k j))
    (hb2 : ∀ j : Fin 32, b2r (ix2 (0 : Fin 1) j) = b2 (ix1 j))
    (x : Fin 32 → EReal) (r : Fin 1024)
    (hx : ∀ l : Fin 32, concatenate S1024x32 0 [⟨S512x32, x₁⟩, ⟨S512x32, x₂⟩] h5 (ix2 r l) = x l) (j : Fin 32) :
    truncf .bf16 (maximumf (addf (matmul (plainDims w2) none
        (truncf .bf16 (maximumf (matmul (plainDims w1) none
            (concatenate S1024x33 1 [⟨S1024x32, concatenate S1024x32 0 [⟨S512x32, x₁⟩, ⟨S512x32, x₂⟩] h5⟩,
              ⟨S1024x1, broadcast S1024x1 (Scalar.ofBits (F := Ideal) .bf16 0x3F80#16)⟩] h6)
            W1f (constant S1024x4096 .f32 0x00000000#32))
          (broadcast S1024x4096 (Scalar.ofBits (F := Ideal) .f32 0x00000000#32))) hlt)
        W2f (constant S1024x32 .f32 0x00000000#32)) (broadcastTo S1024x32 b2r hbr))
      (broadcast S1024x32 (Scalar.ofBits (F := Ideal) .f32 0x00000000#32))) hlt (ix2 r j)
      = embed W1 b1 W2 b2 x j :=
  relu_bias_apply w2 hlt _ W2f b2r hbr (hidden W1 b1 x) W2 b2 r j
    (fun k => relu_aug_apply (K := 32) w1 hlt _ W1f x W1 b1 r k
      (fun l => (append_col_left (n := 32) _ _ h6 r l).trans (hx l))
      ((append_col_last (n := 32) _ _ h6 r).trans Ideal.ofBits_one_bf16)
      (fun l => hW1 l k) (hb1 k))
    (fun k => hW2 k j) (hb2 j)

/-- The last matrix product of the body, at row `p` and column `q` of the tile: the action head's sum on the embeddings
    of row `p` of the two state tiles. The first and third weight matrices arrive with their bias as one more row
    (`hW1`, `hb1`, `hW3`, `hb3`), the second bias as a one-row matrix (`hb2`). -/
theorem tile_eq (xs xn : Vec Ideal S512x32 .bf16) (W1f : Vec Ideal S33x4096 .bf16) (W2 : Vec Ideal S4096x32 .bf16)
    (b2r : Vec Ideal S1x32 .f32) (W3f : Vec Ideal S65x4096 .bf16) (W4 : Vec Ideal S4096x128 .bf16)
    (W1 : Mat 32 4096) (b1 : Vct 4096) (b2 : Vct 32) (W3 : Mat 64 4096) (b3 : Vct 4096)
    (hW1 : ∀ (l : Fin 32) (k : Fin 4096), W1f (ix2 l.castSucc k) = W1 (ix2 l k))
    (hb1 : ∀ k : Fin 4096, W1f (ix2 (Fin.last 32) k) = b1 (ix1 k))
    (hb2 : ∀ j : Fin 32, b2r (ix2 (0 : Fin 1) j) = b2 (ix1 j))
    (hW3 : ∀ (l : Fin 64) (k : Fin 4096), W3f (ix2 l.castSucc k) = W3 (ix2 l k))
    (hb3 : ∀ k : Fin 4096, W3f (ix2 (Fin.last 64) k) = b3 (ix1 k))
    (p : Fin 512) (q : Fin 128) :
    k0_pay2 (F := Ideal) xs xn W1f W2 b2r W3f W4 (ix2 p q)
      = ∑ k : Fin 4096, hidden2 W3 b3 (pair (embed W1 b1 W2 b2 fun l => xs (ix2 p l)) (embed W1 b1 W2 b2 fun l => xn (ix2 p l))) k
          * W4 (ix2 k q) := by
  simp only [k0_pay2]
  -- a change of shape to the same shape reads through
  have sc : ∀ {s : Shape} (v : s.Idx → EReal) (h : s.ShapeCasts s) (i : s.Idx), shapeCast s v h i = v i :=
    fun v h i => congrFun (shapeCast_self v h) i
  -- the last product, term by term
  refine Eq.trans (mm_apply (φ₁ := .bf16) (φ₂ := .bf16) _ none _ _ p q)
    (Finset.sum_congr rfl fun k _ => congrArg₂ (· * ·) ?_ (sc W4 _ _))
  -- the action head's hidden layer: the joined row times the third weights with their bias row
  refine relu_aug_apply (K := 64) (φ₁ := .bf16) (φ₂ := .bf16) _ _ _ _ _ W3 b3 p k (fun l => ?_) ?_
    (fun l => (sc W3f _ _).trans (hW3 l k)) ((sc W3f _ _).trans (hb3 k))
  · -- entry `l` of the joined row: the embedding of the state row below 32, of the next-state row from 32 on
    unfold pair
    by_cases h : l.val < 32
    · rw [dif_pos h]
      refine Eq.trans (join3_first _ _ _ _ p l.castSucc ⟨l.val, h⟩ rfl) ?_
      refine Eq.trans (slice2_axis0_apply 0 _ _ p ⟨l.val, h⟩ ⟨p.val, by have := p.isLt; omega⟩ (Nat.zero_add _).symm) ?_
      exact embed_row _ _ _ _ _ _ _ _ _ _ _ W1 b1 W2 b2 (fun l k => (sc W1f _ _).trans (hW1 l k))
        (fun k => (sc W1f _ _).trans (hb1 k)) (fun k j => sc W2 _ _) (fun j => (sc b2r _ _).trans (hb2 j))
        (fun l' => xs (ix2 p l')) ⟨p.val, by have := p.isLt; omega⟩
        (fun l' => (stack_upper (m := 1024) _ _ _ ⟨p.val, by have := p.isLt; omega⟩ p l' rfl).trans (sc xs _ _)) _
    · rw [dif_neg h]
      have hl := l.isLt
      refine Eq.trans (join3_second _ _ _ _ p l.castSucc ⟨l.val - 32, by omega⟩
        (show l.val = 32 + (l.val - 32) by omega)) ?_
      refine Eq.trans (slice2_axis0_apply 512 _ _ p ⟨l.val - 32, by omega⟩
        ⟨512 + p.val, by have := p.isLt; omega⟩ rfl) ?_
      exact embed_row _ _ _ _ _ _ _ _ _ _ _ W1 b1 W2 b2 (fun l k => (sc W1f _ _).trans (hW1 l k))
        (fun k => (sc W1f _ _).trans (hb1 k)) (fun k j => sc W2 _ _) (fun j => (sc b2r _ _).trans (hb2 j))
        (fun l' => xn (ix2 p l')) ⟨512 + p.val, by have := p.isLt; omega⟩
        (fun l' => (stack_lower (m := 1024) _ _ _ ⟨512 + p.val, by have := p.isLt; omega⟩ p l' rfl).trans (sc xn _ _)) _
  · -- the appended column is the constant one
    exact (join3_third _ _ _ _ p (Fin.last 64) rfl).trans Ideal.ofBits_one_bf16

end Cert.TileRows

end
-- ==== Proof.Tiles.lean ====
/-
  The tiles fill the result.

  Grid point `t` of the kernel reads rows 512·t … 512·t+511 of the two state matrices and the whole of every weight
  array, and writes rows 512·t … 512·t+511 of the result. Before the grid runs, the host lays the first bias under
  the first weight matrix (33 rows) and the third bias under the third weight matrix (65 rows), and reshapes the
  second and fourth biases to one-row matrices; every change of float format is the identity on the extended reals.
  So what point `t` writes back is block `t` of the network's result matrix `Network.G` of the ten arguments, the 32
  blocks tile the result array, and after the run the array IS `Network.G`.
-/
import proofs.«139217_g11802570129985_cont_main3_81_3_alg».proof.Proof.Gen.KernelIdeal.Value
import proofs.«139217_g11802570129985_cont_main3_81_3_alg».proof.Proof.TileRows
import Idealize.ShloMosaic.Lib.StableHlo.Run
import Idealize.ShloMosaic.Lib.Pipeline.Value
import Idealize.ShloMosaic.Lib.ValueLayout

noncomputable section

open scoped BigOperators

namespace Cert.Tiles

open Cert.KernelIdeal Cert.KernelIdeal.Gen Cert.Network Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the grid reads, as the host leaves them -/

/-- The state matrix, its format changed: the same extended reals. -/
theorem staged_state (c : Dev nD) : (V m c main_v0 : S16384x32.Idx → EReal) = m ((c : Thread nD τ).loc main_arg0) := by
  dsimp only [Gen.V, Gen.hostOps0]; after_results; rfl

/-- The next-state matrix likewise. -/
theorem staged_next (c : Dev nD) : (V m c main_v1 : S16384x32.Idx → EReal) = m ((c : Thread nD τ).loc main_arg1) := by
  dsimp only [Gen.V, Gen.hostOps0]; after_results; rfl

/-- The first weight matrix with the first bias as one more row underneath. -/
theorem staged_W1 (c : Dev nD) : (V m c main_v4 : S33x4096.Idx → EReal)
    = concatenate S33x4096 0 [⟨S32x4096, m ((c : Thread nD τ).loc main_arg2)⟩,
        ⟨S1x4096, broadcastInDim S1x4096 ![1] Facts₀.bcast_S4096_S1x4096_1 (m ((c : Thread nD τ).loc main_arg3))⟩]
        Facts₀.concatenates_S32x4096_S1x4096_S33x4096_d0 := by
  dsimp only [Gen.V, Gen.hostOps0]; after_results; rfl

/-- The second weight matrix. -/
theorem staged_W2 (c : Dev nD) : (V m c main_v8 : S4096x32.Idx → EReal) = m ((c : Thread nD τ).loc main_arg4) := by
  dsimp only [Gen.V, Gen.hostOps0]; after_results; rfl

/-- The second bias as a one-row matrix. -/
theorem staged_b2 (c : Dev nD) : (V m c main_v10 : S1x32.Idx → EReal)
    = shapeCast S1x32 (m ((c : Thread nD τ).loc main_arg5)) Facts₀.shapeCasts_S32_S1x32 := by
  dsimp only [Gen.V, Gen.hostOps0]; after_results; rfl

/-- The third weight matrix with the third bias as one more row underneath. -/
theorem staged_W3 (c : Dev nD) : (V m c main_v7 : S65x4096.Idx → EReal)
    = concatenate S65x4096 0 [⟨S64x4096, m ((c : Thread nD τ).loc main_arg6)⟩,
        ⟨S1x4096, broadcastInDim S1x4096 ![1] Facts₀.bcast_S4096_S1x4096_1 (m ((c : Thread nD τ).loc main_arg7))⟩]
        Facts₀.concatenates_S64x4096_S1x4096_S65x4096_d0 := by
  dsimp only [Gen.V, Gen.hostOps0]; after_results; rfl

/-- The fourth weight matrix. -/
theorem staged_W4 (c : Dev nD) : (V m c main_v9 : S4096x128.Idx → EReal) = m ((c : Thread nD τ).loc main_arg8) := by
  dsimp only [Gen.V, Gen.hostOps0]; after_results; rfl

/-- The fourth bias as a one-row matrix. -/
theorem staged_b4 (c : Dev nD) : (V m c main_v11 : S1x128.Idx → EReal)
    = shapeCast S1x128 (m ((c : Thread nD τ).loc main_arg9)) Facts₀.shapeCasts_S128_S1x128 := by
  dsimp only [Gen.V, Gen.hostOps0]; after_results; rfl

/-! ## The augmented weights and the one-row biases, read entry by entry -/

/-- Rows 0–31 of the first staged matrix are the first weight matrix. -/
theorem W1_rows (c : Dev nD) (l : Fin 32) (k : Fin 4096) :
    (V m c main_v4 : S33x4096.Idx → EReal) (ix2 l.castSucc k) = m ((c : Thread nD τ).loc main_arg2) (ix2 l k) := by
  rw [staged_W1]
  exact concatenate_pair_apply_left (t := S33x4096) (s₁ := S32x4096) (s₂ := S1x4096) (0 : Fin 2) _ _ _ (ix2 l.castSucc k) rfl (ix2 l k)
    (fun b => match b with | ⟨0, _⟩ => rfl | ⟨1, _⟩ => rfl)

/-- Row 32 of the first staged matrix is the first bias. -/
theorem W1_last (c : Dev nD) (k : Fin 4096) :
    (V m c main_v4 : S33x4096.Idx → EReal) (ix2 (Fin.last 32) k) = m ((c : Thread nD τ).loc main_arg3) (ix1 k) := by
  rw [staged_W1]
  refine (concatenate_pair_apply_right (t := S33x4096) (s₁ := S32x4096) (s₂ := S1x4096) (0 : Fin 2) _ _ _ (ix2 (Fin.last 32) k) rfl rfl (ix2 (0 : Fin 1) k)
    (fun b hb => ?_) rfl).trans ?_
  · match b with
    | ⟨0, _⟩ => exact absurd rfl hb
    | ⟨1, _⟩ => rfl
  · exact broadcastInDim_apply _ _ _ (ix2 (0 : Fin 1) k) (ix1 k) (fun a => match a with
      | ⟨0, _⟩ => by show k.val = if (4096 : Nat) = 1 then 0 else k.val; rw [if_neg (by decide)])

/-- Rows 0–63 of the third staged matrix are the third weight matrix. -/
theorem W3_rows (c : Dev nD) (l : Fin 64) (k : Fin 4096) :
    (V m c main_v7 : S65x4096.Idx → EReal) (ix2 l.castSucc k) = m ((c : Thread nD τ).loc main_arg6) (ix2 l k) := by
  rw [staged_W3]
  exact concatenate_pair_apply_left (t := S65x4096) (s₁ := S64x4096) (s₂ := S1x4096) (0 : Fin 2) _ _ _ (ix2 l.castSucc k) rfl (ix2 l k)
    (fun b => match b with | ⟨0, _⟩ => rfl | ⟨1, _⟩ => rfl)

/-- Row 64 of the third staged matrix is the third bias. -/
theorem W3_last (c : Dev nD) (k : Fin 4096) :
    (V m c main_v7 : S65x4096.Idx → EReal) (ix2 (Fin.last 64) k) = m ((c : Thread nD τ).loc main_arg7) (ix1 k) := by
  rw [staged_W3]
  refine (concatenate_pair_apply_right (t := S65x4096) (s₁ := S64x4096) (s₂ := S1x4096) (0 : Fin 2) _ _ _ (ix2 (Fin.last 64) k) rfl rfl (ix2 (0 : Fin 1) k)
    (fun b hb => ?_) rfl).trans ?_
  · match b with
    | ⟨0, _⟩ => exact absurd rfl hb
    | ⟨1, _⟩ => rfl
  · exact broadcastInDim_apply _ _ _ (ix2 (0 : Fin 1) k) (ix1 k) (fun a => match a with
      | ⟨0, _⟩ => by show k.val = if (4096 : Nat) = 1 then 0 else k.val; rw [if_neg (by decide)])

/-- The one row of the staged second bias. -/
theorem b2_row (c : Dev nD) (j : Fin 32) :
    (V m c main_v10 : S1x32.Idx → EReal) (ix2 (0 : Fin 1) j) = m ((c : Thread nD τ).loc main_arg5) (ix1 j) := by
  rw [staged_b2]
  exact shapeCast_a_1a_apply _ _ (0 : Fin 1) j

/-- The one row of the staged fourth bias. -/
theorem b4_row (c : Dev nD) (q : Fin 128) :
    (V m c main_v11 : S1x128.Idx → EReal) (ix2 (0 : Fin 1) q) = m ((c : Thread nD τ).loc main_arg9) (ix1 q) := by
  rw [staged_b4]
  exact shapeCast_a_1a_apply _ _ (0 : Fin 1) q

/-! ## Where each window's block lies in its array -/

/-- The index maps over the 32 grid points: the two state windows and the result window take block `t` of the rows,
    every weight window its whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Every block of rows of the result is some point's. -/
theorem idx_onto : ∀ q0 : Fin 32, ∃ t : Fin cfg0.N, win0_8.index t = ![q0.val, 0] :=
  (by decide +kernel : ∀ q0 : Fin 32, ∃ t : Fin grid0.N, win0_8.index t = ![q0.val, 0])

/-- Row `p` of the state tile at point `t` is row `512·t + p` of the state matrix. -/
theorem state_tile (c : Dev nD) (t : Fin cfg0.N) (p : Fin 512) (l : Fin 32) (r : Fin 16384) (hr : r.val = 512 * t.val + p.val) :
    (iblk m c 0 t : S512x32.Idx → EReal) (ix2 p l) = m ((c : Thread nD τ).loc main_arg0) (ix2 r l) := by
  obtain ⟨a0, a1, b0, b1, c0, c1, d0, d1, e0, e1, f0, f1, g0, g1, h0, h1, o0, o1⟩ := idx_facts t
  show (V m c main_v0 : S16384x32.Idx → EReal) (((cfg0.win 0).blk t).view.emb (ix2 p l)) = _
  rw [staged_state]
  refine congrArg _ (funext fun a => Fin.ext ?_)
  match a with
  | ⟨0, _⟩ => show win0_0.index t (0 : Fin 2) * 512 + 1 * p.val = r.val; omega
  | ⟨1, _⟩ => show win0_0.index t (1 : Fin 2) * 32 + 1 * l.val = l.val; omega

/-- Row `p` of the next-state tile at point `t` is row `512·t + p` of the next-state matrix. -/
theorem next_tile (c : Dev nD) (t : Fin cfg0.N) (p : Fin 512) (l : Fin 32) (r : Fin 16384) (hr : r.val = 512 * t.val + p.val) :
    (iblk m c 1 t : S512x32.Idx → EReal) (ix2 p l) = m ((c : Thread nD τ).loc main_arg1) (ix2 r l) := by
  obtain ⟨a0, a1, b0, b1, c0, c1, d0, d1, e0, e1, f0, f1, g0, g1, h0, h1, o0, o1⟩ := idx_facts t
  show (V m c main_v1 : S16384x32.Idx → EReal) (((cfg0.win 1).blk t).view.emb (ix2 p l)) = _
  rw [staged_next]
  refine congrArg _ (funext fun a => Fin.ext ?_)
  match a with
  | ⟨0, _⟩ => show win0_1.index t (0 : Fin 2) * 512 + 1 * p.val = r.val; omega
  | ⟨1, _⟩ => show win0_1.index t (1 : Fin 2) * 32 + 1 * l.val = l.val; omega

/-- At every point the first weight window holds the whole staged matrix. -/
theorem W1_tile (c : Dev nD) (t : Fin cfg0.N) : (iblk m c 2 t : S33x4096.Idx → EReal) = (V m c main_v4 : S33x4096.Idx → EReal) := by
  obtain ⟨a0, a1, b0, b1, c0, c1, d0, d1, e0, e1, f0, f1, g0, g1, h0, h1, o0, o1⟩ := idx_facts t
  funext y
  show (V m c main_v4 : S33x4096.Idx → EReal) (((cfg0.win 2).blk t).view.emb y) = _
  refine congrArg _ (funext fun a => Fin.ext ?_)
  match a with
  | ⟨0, _⟩ => show win0_2.index t (0 : Fin 2) * 33 + 1 * (y 0).val = (y 0).val; omega
  | ⟨1, _⟩ => show win0_2.index t (1 : Fin 2) * 4096 + 1 * (y 1).val = (y 1).val; omega

/-- At every point the second weight window holds the whole staged matrix. -/
theorem W2_tile (c : Dev nD) (t : Fin cfg0.N) : (iblk m c 3 t : S4096x32.Idx → EReal) = (V m c main_v8 : S4096x32.Idx → EReal) := by
  obtain ⟨a0, a1, b0, b1, c0, c1, d0, d1, e0, e1, f0, f1, g0, g1, h0, h1, o0, o1⟩ := idx_facts t
  funext y
  show (V m c main_v8 : S4096x32.Idx → EReal) (((cfg0.win 3).blk t).view.emb y) = _
  refine congrArg _ (funext fun a => Fin.ext ?_)
  match a with
  | ⟨0, _⟩ => show win0_3.index t (0 : Fin 2) * 4096 + 1 * (y 0).val = (y 0).val; omega
  | ⟨1, _⟩ => show win0_3.index t (1 : Fin 2) * 32 + 1 * (y 1).val = (y 1).val; omega

/-- At every point the second bias window holds the whole staged row. -/
theorem b2_tile (c : Dev nD) (t : Fin cfg0.N) : (iblk m c 4 t : S1x32.Idx → EReal) = (V m c main_v10 : S1x32.Idx → EReal) := by
  obtain ⟨a0, a1, b0, b1, c0, c1, d0, d1, e0, e1, f0, f1, g0, g1, h0, h1, o0, o1⟩ := idx_facts t
  funext y
  show (V m c main_v10 : S1x32.Idx → EReal) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- At every point the third weight window holds the whole staged matrix. -/
theorem W3_tile (c : Dev nD) (t : Fin cfg0.N) : (iblk m c 5 t : S65x4096.Idx → EReal) = (V m c main_v7 : S65x4096.Idx → EReal) := by
  obtain ⟨a0, a1, b0, b1, c0, c1, d0, d1, e0, e1, f0, f1, g0, g1, h0, h1, o0, o1⟩ := idx_facts t
  funext y
  show (V m c main_v7 : S65x4096.Idx → EReal) (((cfg0.win 5).blk t).view.emb y) = _
  refine congrArg _ (funext fun a => Fin.ext ?_)
  match a with
  | ⟨0, _⟩ => show win0_5.index t (0 : Fin 2) * 65 + 1 * (y 0).val = (y 0).val; omega
  | ⟨1, _⟩ => show win0_5.index t (1 : Fin 2) * 4096 + 1 * (y 1).val = (y 1).val; omega

/-- At every point the fourth weight window holds the whole staged matrix. -/
theorem W4_tile (c : Dev nD) (t : Fin cfg0.N) : (iblk m c 6 t : S4096x128.Idx → EReal) = (V m c main_v9 : S4096x128.Idx → EReal) := by
  obtain ⟨a0, a1, b0, b1, c0, c1, d0, d1, e0, e1, f0, f1, g0, g1, h0, h1, o0, o1⟩ := idx_facts t
  funext y
  show (V m c main_v9 : S4096x128.Idx → EReal) (((cfg0.win 6).blk t).view.emb y) = _
  refine congrArg _ (funext fun a => Fin.ext ?_)
  match a with
  | ⟨0, _⟩ => show win0_6.index t (0 : Fin 2) * 4096 + 1 * (y 0).val = (y 0).val; omega
  | ⟨1, _⟩ => show win0_6.index t (1 : Fin 2) * 128 + 1 * (y 1).val = (y 1).val; omega

/-- At every point the fourth bias window holds the whole staged row. -/
theorem b4_tile (c : Dev nD) (t : Fin cfg0.N) : (iblk m c 7 t : S1x128.Idx → EReal) = (V m c main_v11 : S1x128.Idx → EReal) := by
  obtain ⟨a0, a1, b0, b1, c0, c1, d0, d1, e0, e1, f0, f1, g0, g1, h0, h1, o0, o1⟩ := idx_facts t
  funext y
  show (V m c main_v11 : S1x128.Idx → EReal) (((cfg0.win 7).blk t).view.emb y) = _
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-! ## One point's write-back -/

/-- The body's last operation adds the fourth bias, one row broadcast down the tile, to the last product. -/
theorem last_add (A : Vec Ideal S512x128 .f32) (B : Vec Ideal S1x128 .f32) (p : Fin 512) (q : Fin 128) :
    k0_pay1 (F := Ideal) A B (ix2 p q) = A (ix2 p q) + B (ix2 (0 : Fin 1) q) := by
  have e : (broadcastTo S512x128 (shapeCast S1x128 B Facts₀.shapeCasts_S1x128_S1x128 : FVec Ideal S1x128 .f32)
      Facts₀.broadcasts_S1x128_S512x128 : FVec Ideal S512x128 .f32) (ix2 p q) = B (ix2 (0 : Fin 1) q) := by
    rw [broadcastTo_1b_ab_apply, shapeCast_self]
  exact congrArg (A (ix2 p q) + ·) e

/-- What the body stores at row `p`, column `q` of its tile is the network's output at row `r` of the batch, whenever
    row `p` of the two state tiles is row `r` of the state matrices and the weight operands are the weights with the
    biases laid out as the host lays them. -/
theorem point_eq (xs xn : Vec Ideal S512x32 .bf16) (W1f : Vec Ideal S33x4096 .bf16) (W2 : Vec Ideal S4096x32 .bf16)
    (b2r : Vec Ideal S1x32 .f32) (W3f : Vec Ideal S65x4096 .bf16) (W4 : Vec Ideal S4096x128 .bf16) (b4r : Vec Ideal S1x128 .f32)
    (s n : Mat 16384 32) (W1 : Mat 32 4096) (b1 : Vct 4096) (W2' : Mat 4096 32) (b2 : Vct 32) (W3 : Mat 64 4096) (b3 : Vct 4096)
    (W4' : Mat 4096 128) (b4 : Vct 128) (p : Fin 512) (q : Fin 128) (r : Fin 16384)
    (hs : ∀ l : Fin 32, xs (ix2 p l) = s (ix2 r l)) (hn : ∀ l : Fin 32, xn (ix2 p l) = n (ix2 r l))
    (hW1 : ∀ (l : Fin 32) (k : Fin 4096), W1f (ix2 l.castSucc k) = W1 (ix2 l k))
    (hb1 : ∀ k : Fin 4096, W1f (ix2 (Fin.last 32) k) = b1 (ix1 k))
    (hW2 : W2 = W2')
    (hb2 : ∀ j : Fin 32, b2r (ix2 (0 : Fin 1) j) = b2 (ix1 j))
    (hW3 : ∀ (l : Fin 64) (k : Fin 4096), W3f (ix2 l.castSucc k) = W3 (ix2 l k))
    (hb3 : ∀ k : Fin 4096, W3f (ix2 (Fin.last 64) k) = b3 (ix1 k))
    (hW4 : W4 = W4')
    (hb4 : b4r (ix2 (0 : Fin 1) q) = b4 (ix1 q)) :
    k0_pay1 (F := Ideal) (k0_pay2 (F := Ideal) xs xn W1f W2 b2r W3f W4) b4r (ix2 p q)
      = out s n W1 b1 W2' b2 W3 b3 W4' b4 r q := by
  subst hW2 hW4
  rw [last_add, Cert.TileRows.tile_eq xs xn W1f W2 b2r W3f W4 W1 b1 b2 W3 b3 hW1 hb1 hb2 hW3 hb3 p q, hb4]
  unfold out action
  rw [funext hs, funext hn]

theorem hz : (![0, 0] : Fin 2 → Nat) = fun _ => 0 := funext fun a => by fin_cases a <;> rfl

/-- WHAT POINT `t` WRITES BACK is block `t` of the network's result matrix of the ten arguments. -/
theorem flushed_eq (c : Dev nD) (t : Fin cfg0.N) :
    (dats m 0 c).flushed 8 t = ((cfg0.win 8).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Cert.KernelIdeal.Value.flushed8]
  unfold out0_8
  rw [View.canon_unit_zero hz]
  simp only [View.ld_unit_zero (S := S512x32) hz, View.ld_unit_zero (S := S33x4096) hz, View.ld_unit_zero (S := S4096x32) hz,
    View.ld_unit_zero (S := S1x32) hz, View.ld_unit_zero (S := S65x4096) hz, View.ld_unit_zero (S := S4096x128) hz,
    View.ld_unit_zero (S := S1x128) hz]
  obtain ⟨a0, a1, b0, b1, c0, c1, d0, d1, e0, e1, f0, f1, g0, g1, h0, h1, o0, o1⟩ := idx_facts t
  funext j
  obtain ⟨p, q, rfl⟩ : ∃ (p : Fin 512) (q : Fin 128), j = ix2 p q := ⟨j 0, j 1, eq_ix2 j⟩
  have ht : t.val < 32 := t.isLt
  have hp : p.val < 512 := p.isLt
  have hr : 512 * t.val + p.val < 16384 := by omega
  have hemb : ((cfg0.win 8).blk t).view.emb (ix2 p q) = ix2 (⟨512 * t.val + p.val, hr⟩ : Fin 16384) q :=
    funext fun a => Fin.ext (by
      match a with
      | ⟨0, _⟩ => show win0_8.index t (0 : Fin 2) * 512 + 1 * p.val = 512 * t.val + p.val; omega
      | ⟨1, _⟩ => show win0_8.index t (1 : Fin 2) * 128 + 1 * q.val = q.val; omega)
  show k0_pay1 (F := Ideal) (k0_pay2 (F := Ideal) (iblk m c 0 t) (iblk m c 1 t) (iblk m c 2 t) (iblk m c 3 t) (iblk m c 4 t)
      (iblk m c 5 t) (iblk m c 6 t)) (iblk m c 7 t) (ix2 p q)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 8).blk t).view.emb (ix2 p q))
  rw [hemb, G_apply]
  refine point_eq (iblk m c 0 t) (iblk m c 1 t) (iblk m c 2 t) (iblk m c 3 t) (iblk m c 4 t) (iblk m c 5 t) (iblk m c 6 t)
    (iblk m c 7 t) _ _ _ _ _ _ _ _ _ _ p q ⟨512 * t.val + p.val, hr⟩
    (fun l => state_tile m c t p l _ rfl) (fun l => next_tile m c t p l _ rfl)
    (fun l k => ?_) (fun k => ?_) ?_ (fun j => ?_) (fun l k => ?_) (fun k => ?_) ?_ ?_
  · exact (congrFun (W1_tile m c t) _).trans (W1_rows m c l k)
  · exact (congrFun (W1_tile m c t) _).trans (W1_last m c k)
  · exact (W2_tile m c t).trans (staged_W2 m c)
  · exact (congrFun (b2_tile m c t) _).trans (b2_row m c j)
  · exact (congrFun (W3_tile m c t) _).trans (W3_rows m c l k)
  · exact (congrFun (W3_tile m c t) _).trans (W3_last m c k)
  · exact (W4_tile m c t).trans (staged_W4 m c)
  · exact (congrFun (b4_tile m c t) _).trans (b4_row m c q)

/-! ## The blocks tile the result -/

/-- An index of the result is in point `t`'s block iff each coordinate is in the block's range on its axis. -/
theorem mem_blk (t : Fin cfg0.N) (i : S16384x128.Idx) :
    i ∈ ((cfg0.win 8).blk t).view.set ↔ ∀ a : Fin 2, win0_8.index t a * S512x128.size a ≤ (i a).val
      ∧ (i a).val < win0_8.index t a * S512x128.size a + S512x128.size a := by
  show i ∈ ((View.whole main_v12).slice (win0_8.rect t)).set ↔ _
  rw [View.set_slice_whole, Rect.mem_set_unit]
  exact Iff.rfl

/-- Row `r` of the result lies in the block of the point `r / 512`. -/
theorem cover (i : S16384x128.Idx) : ∃ t : Fin cfg0.N, (cfg0.win 8).flush t = true ∧ i ∈ ((cfg0.win 8).blk t).view.set := by
  have hi0 : (i 0).val < 16384 := (i 0).isLt
  have hi1 : (i 1).val < 128 := (i 1).isLt
  obtain ⟨t, ht⟩ := idx_onto ⟨(i 0).val / 512, by omega⟩
  have q0 : win0_8.index t (0 : Fin 2) = (i 0).val / 512 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 128 ≤ (i 1).val ∧ (i 1).val < win0_8.index t (1 : Fin 2) * 128 + 128; omega

/-- THE RESULT ARRAY after the run is the network's result matrix of the ten arguments. -/
theorem final (c : Dev nD) : (dats m 0 c).arrAt 8 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 8 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun t _ => flushed_eq m c t) cover

/-! ## The kernel's run, read -/

/-- Every weakly fair execution of the kernel ends with the result array at the network's result matrix of the
    arguments, and the arguments unchanged. -/
theorem run : θ_run defs (onTc (τ := τ) (main (F := Ideal))) ⟨m, fun _ => 0, ρ⟩ fun r => ∀ c : Dev nD,
      r.2.mem ((c : Thread nD τ).loc main_v12) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.Tiles

end
-- ==== Proof.lean ====
/-
  A fused Siamese network on the TensorCore against its jnp reference, over the extended reals.

  Both programs embed each row of a state matrix and of a next-state matrix by two affine layers with a positive part
  after each, lay the two 32-entry embeddings side by side, and send the 64 entries through an action head of two more
  affine layers with a positive part between them: `Network.G` (Proof/Network.lean), one function of the ten argument
  arrays, row by row.

  The reference computes it literally (Proof/ReferenceRows.lean, over its generated run read one operation at a time).
  The kernel works on 32 tiles of 512 rows. In each tile it stacks the state rows over the next-state rows, and it
  carries the first and the third bias through the matrix unit: a column of ones is appended to the activations and
  the bias is one more row of the weight matrix, so that  ∑ over 33 (resp. 65) entries = ∑ over 32 (resp. 64) + 1·b.
  Every change of float format is the identity on the extended reals, a product into a zero accumulator is the plain
  sum, and the order of a sum does not matter; no law used needs the entries to be finite (Proof/TileRows.lean: one
  tile; Proof/Tiles.lean: the host's layout of the weights, the tiles filling the result).

  The kernel's idealization rewrote nothing, so `preserves` is `True`; the three frames are the generated ones.
-/
import proofs.«139217_g11802570129985_cont_main3_81_3_alg».proof.Defs
import proofs.«139217_g11802570129985_cont_main3_81_3_alg».proof.Proof.Gen.Kernel
import proofs.«139217_g11802570129985_cont_main3_81_3_alg».proof.Proof.Gen.Kernel.Skeleton
import proofs.«139217_g11802570129985_cont_main3_81_3_alg».proof.Proof.Gen.Kernel.Launch
import proofs.«139217_g11802570129985_cont_main3_81_3_alg».proof.Proof.Gen.Kernel.Points
import proofs.«139217_g11802570129985_cont_main3_81_3_alg».proof.Proof.Gen.Kernel.Frame
import proofs.«139217_g11802570129985_cont_main3_81_3_alg».proof.Proof.Gen.KernelIdeal
import proofs.«139217_g11802570129985_cont_main3_81_3_alg».proof.Proof.Gen.KernelIdeal.Skeleton
import proofs.«139217_g11802570129985_cont_main3_81_3_alg».proof.Proof.Gen.KernelIdeal.Launch
import proofs.«139217_g11802570129985_cont_main3_81_3_alg».proof.Proof.Gen.KernelIdeal.Points
import proofs.«139217_g11802570129985_cont_main3_81_3_alg».proof.Proof.Gen.KernelIdeal.Frame
import proofs.«139217_g11802570129985_cont_main3_81_3_alg».proof.Proof.Gen.ReferenceIdeal
import proofs.«139217_g11802570129985_cont_main3_81_3_alg».proof.Proof.Gen.Pre_finite_inputs
import proofs.«139217_g11802570129985_cont_main3_81_3_alg».proof.Proof.Gen.KernelIdeal.Value
import proofs.«139217_g11802570129985_cont_main3_81_3_alg».proof.Proof.Gen.ReferenceIdeal.Run
import proofs.«139217_g11802570129985_cont_main3_81_3_alg».proof.Proof.Gen.ReferenceIdeal.Read
import proofs.«139217_g11802570129985_cont_main3_81_3_alg».proof.Proof.Network
import proofs.«139217_g11802570129985_cont_main3_81_3_alg».proof.Proof.ReferenceRows
import proofs.«139217_g11802570129985_cont_main3_81_3_alg».proof.Proof.TileRows
import proofs.«139217_g11802570129985_cont_main3_81_3_alg».proof.Proof.Tiles
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the ten arguments both programs end with the result array at `Network.G` of the
    arguments: the kernel tile by tile, the reference operation by operation. -/
theorem algebraic : Cert.algebraic_KernelIdeal_ReferenceIdeal := by
  intro m ρ m' ρ' _ hagree
  refine ⟨_, Cert.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v29_eq, Cert.ReferenceRows.ref_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
